-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S1000000x1 : Shape := ⟨2, ![1000000, 1]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S1000000x1 : S_.BroadcastsInDim S1000000x1 (![] : Fin 0 → Fin S1000000x1.rank)
  reducesTo_S1000000x1_S_d0_1 : S1000000x1.ReducesTo [0, 1] S_

variable [Facts]

def fn {F : FTy → Type} [FloatOps F] (main_arg0 : FVec F S1000000x64 .f32) (main_arg1 : IVec S1000000x64 32) (main_arg2 : FVec F S1000000x1 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x1 .f32 := Host.absf main_arg2
  let main_cst_0 : FVec F S_ .f32 := constant S_ .f32 0x7F800000#32
  let main_v5 : FVec F S1000000x1 .f32 := broadcastInDim S1000000x1 ![] bcast_S_S1000000x1 main_cst_0
  let main_v6 : IVec S1000000x1 1 := cmpf .olt main_v4 main_v5
  let main_c_1 : IVec S_ 1 := constantI S_ 1 1#1
  let main_v7 : IVec S_ 1 := (fun x v => Host.reduce IntOp.andi x v reducesTo_S1000000x1_S_d0_1 h_S_) main_v6 main_c_1
  let main_v8 : IVec S_ 1 := andi main_v3 main_v7
  main_v8
-- ==== Kernel.lean ====
abbrev S1000000x64 : Shape := ⟨2, ![1000000, 64]⟩
abbrev S1000000x1 : Shape := ⟨2, ![1000000, 1]⟩
abbrev S1000000 : Shape := ⟨1, ![1000000]⟩
abbrev S1000000x63 : Shape := ⟨2, ![1000000, 63]⟩
abbrev S_ : Shape := ⟨0, ![]⟩
abbrev S1000000x63x1 : Shape := ⟨3, ![1000000, 63, 1]⟩
abbrev S500000x128 : Shape := ⟨2, ![500000, 128]⟩
abbrev S500000x2 : Shape := ⟨2, ![500000, 2]⟩
abbrev S5000x128 : Shape := ⟨2, ![5000, 128]⟩
abbrev S5000x2 : Shape := ⟨2, ![5000, 2]⟩
abbrev S5000x1 : Shape := ⟨2, ![5000, 1]⟩

abbrev nBuf : Space → Nat
  | .hbm => 34
  | .vmem => 10
  | .smem => 0
  | _ => 0

abbrev bufTy : (tb : Table) → Fin (tcTables nBuf tb) → BufTy
  | .hbm, ⟨0, _⟩ => ⟨S1000000x64, .f32⟩
  | .hbm, ⟨1, _⟩ => ⟨S1000000x64, .i32⟩
  | .hbm, ⟨2, _⟩ => ⟨S1000000x1, .f32⟩
  | .hbm, ⟨3, _⟩ => ⟨S1000000, .f32⟩
  | .hbm, ⟨4, _⟩ => ⟨S1000000x63, .i32⟩
  | .hbm, ⟨5, _⟩ => ⟨S_, .i32⟩
  | .hbm, ⟨6, _⟩ => ⟨S1000000x63, .i32⟩
  | .hbm, ⟨7, _⟩ => ⟨S1000000x63, .i32⟩
  | .hbm, ⟨8, _⟩ => ⟨S_, .i32⟩
  | .hbm, ⟨9, _⟩ => ⟨S1000000x63, .i32⟩
  | .hbm, ⟨10, _⟩ => ⟨S1000000x63, .i1⟩
  | .hbm, ⟨11, _⟩ => ⟨S_, .i32⟩
  | .hbm, ⟨12, _⟩ => ⟨S1000000x63, .i32⟩
  | .hbm, ⟨13, _⟩ => ⟨S1000000x63, .i32⟩
  | .hbm, ⟨14, _⟩ => ⟨S1000000x63, .i32⟩
  | .hbm, ⟨15, _⟩ => ⟨S1000000x63x1, .i32⟩
  | .hbm, ⟨16, _⟩ => ⟨S1000000x63, .f32⟩
  | .hbm, ⟨17, _⟩ => ⟨S_, .i32⟩
  | .hbm, ⟨18, _⟩ => ⟨S1000000x63, .i32⟩
  | .hbm, ⟨19, _⟩ => ⟨S1000000x63, .i1⟩
  | .hbm, ⟨20, _⟩ => ⟨S_, .f32⟩
  | .hbm, ⟨21, _⟩ => ⟨S1000000x63, .f32⟩
  | .hbm, ⟨22, _⟩ => ⟨S1000000x63, .f32⟩
  | .hbm, ⟨23, _⟩ => ⟨S_, .f32⟩
  | .hbm, ⟨24, _⟩ => ⟨S1000000, .f32⟩
  | .hbm, ⟨25, _⟩ => ⟨S1000000x1, .f32⟩
  | .hbm, ⟨26, _⟩ => ⟨S1000000x1, .f32⟩
  | .hbm, ⟨27, _⟩ => ⟨S500000x128, .f32⟩
  | .hbm, ⟨28, _⟩ => ⟨S500000x128, .i32⟩
  | .hbm, ⟨29, _⟩ => ⟨S500000x2, .f32⟩
  | .hbm, ⟨30, _⟩ => ⟨S500000x128, .f32⟩
  | .hbm, ⟨31, _⟩ => ⟨S500000x128, .i32⟩
  | .hbm, ⟨32, _⟩ => ⟨S1000000x64, .f32⟩
  | .hbm, ⟨33, _⟩ => ⟨S1000000x64, .i32⟩
  | .local _ .vmem, ⟨0, _⟩ => ⟨S5000x128, .f32⟩
  | .local _ .vmem, ⟨1, _⟩ => ⟨S5000x128, .f32⟩
  | .local _ .vmem, ⟨2, _⟩ => ⟨S5000x128, .i32⟩
  | .local _ .vmem, ⟨3, _⟩ => ⟨S5000x128, .i32⟩
  | .local _ .vmem, ⟨4, _⟩ => ⟨S5000x2, .f32⟩
  | .local _ .vmem, ⟨5, _⟩ => ⟨S5000x2, .f32⟩
  | .local _ .vmem, ⟨6, _⟩ => ⟨S5000x128, .f32⟩
  | .local _ .vmem, ⟨7, _⟩ => ⟨S5000x128, .f32⟩
  | .local _ .vmem, ⟨8, _⟩ => ⟨S5000x128, .i32⟩
  | .local _ .vmem, ⟨9, _⟩ => ⟨S5000x128, .i32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_call0_v0 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1000000x1_S1000000 : S1000000x1.ShapeCasts S1000000
  slices_S1000000x64_S1000000x63_0_1 : S1000000x64.Slices ![0, 1] S1000000x63
  bcast_S_S1000000x63 : S_.BroadcastsInDim S1000000x63 (![] : Fin 0 → Fin S1000000x63.rank)
  bcast_S1000000x63_S1000000x63x1_0_1 : S1000000x63.BroadcastsInDim S1000000x63x1 (![0, 1] : Fin 2 → Fin S1000000x63x1.rank)
  reducesTo_S1000000x63_S1000000_d1 : S1000000x63.ReducesTo [1] S1000000
  h_S_ : 0 < S_.numel
  bcast_S1000000_S1000000x1_0 : S1000000.BroadcastsInDim S1000000x1 (![0] : Fin 1 → Fin S1000000x1.rank)
  shapeCasts_S1000000x64_S500000x128 : S1000000x64.ShapeCasts S500000x128
  shapeCasts_S1000000x1_S500000x2 : S1000000x1.ShapeCasts S500000x2
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  iota_S5000x128_d1_w32 : S5000x128.Iotas .tc 32 [1]
  inb_S5000x2_S5000x1_0_0 : ∀ a, (![0, 0] : Fin 2 → Nat) a + S5000x1.size a ≤ S5000x2.size a
  h_S5000x1 : 0 < S5000x1.numel
  shapeCasts_S5000x1_S5000x1 : S5000x1.ShapeCasts S5000x1
  broadcasts_S5000x1_S5000x128 : S5000x1.Broadcasts S5000x128
  inb_S5000x2_S5000x1_0_1 : ∀ a, (![0, 1] : Fin 2 → Nat) a + S5000x1.size a ≤ S5000x2.size a
  slices_S5000x128_o0_0_S5000x1 : S5000x128.Slices ![0, 0] S5000x1
  slices_S5000x128_o0_64_S5000x1 : S5000x128.Slices ![0, 64] S5000x1
  shapeCasts_S500000x128_S1000000x64 : S500000x128.ShapeCasts S1000000x64
  gather_S1000000_S1000000x63x1_S1000000x63_n_0_n_n_0_2_1_wf : GatherDims.WF S1000000 S1000000x63x1 S1000000x63 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .i32 = 32 ∨ (Rect.block (s := S500000x128) S5000x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x2.size a ≤ S500000x2.size a
  hwx0_2 : ∀ i : grid0.Coords, EltTy.bits .f32 = 32 ∨ (Rect.block (s := S500000x2) S5000x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S500000x128.size a
  hwx0_3 : ∀ i : grid0.Coords, EltTy.bits .f32 = 32 ∨ (Rect.block (s := S500000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S500000x128.size a
  hwx0_4 : ∀ i : grid0.Coords, EltTy.bits .i32 = 32 ∨ (Rect.block (s := S500000x128) S5000x128.size (cc0_transform_4 i) (hinb0_4 i)).WholeWords (EltTy.packing .i32)

variable [Facts₀]

def gather_S1000000_S1000000x63x1_S1000000x63_n_0_n_n_0_2_1 : GatherDims S1000000 S1000000x63x1 S1000000x63 where
  offsetDims := []
  collapsedSliceDims := [0]
  operandBatchingDims := []
  startIndicesBatchingDims := []
  startIndexMap := [0]
  indexVectorDim := 2
  sliceSizes := ![1]
  wf := gather_S1000000_S1000000x63x1_S1000000x63_n_0_n_n_0_2_1_wf

abbrev win0_0 : Pipeline.Window sig grid0 :=
  Pipeline.Window.ofSpec (Memref.whole main_v17) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S5000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where
  halias0_3 : Pipeline.Aliased win0 0 3
  halias0_4 : Pipeline.Aliased win0 1 4

variable [Facts]
-- ==== ReferenceIdeal.lean ====
abbrev S1000000x64 : Shape := ⟨2, ![1000000, 64]⟩
abbrev S1000000x1 : Shape := ⟨2, ![1000000, 1]⟩
abbrev S1000000 : Shape := ⟨1, ![1000000]⟩
abbrev S_ : Shape := ⟨0, ![]⟩
abbrev S1000000x64x1 : Shape := ⟨3, ![1000000, 64, 1]⟩
abbrev S1000000x63 : Shape := ⟨2, ![1000000, 63]⟩

abbrev nBuf : Space → Nat
  | .hbm => 41
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000x64, .i32⟩
  | .hbm, ⟨2, _⟩ => ⟨S1000000x1, .f32⟩
  | .hbm, ⟨3, _⟩ => ⟨S1000000, .f32⟩
  | .hbm, ⟨4, _⟩ => ⟨S_, .i32⟩
  | .hbm, ⟨5, _⟩ => ⟨S1000000x64, .i32⟩
  | .hbm, ⟨6, _⟩ => ⟨S1000000x64, .i32⟩
  | .hbm, ⟨7, _⟩ => ⟨S_, .i32⟩
  | .hbm, ⟨8, _⟩ => ⟨S1000000x64, .i32⟩
  | .hbm, ⟨9, _⟩ => ⟨S1000000x64, .i1⟩
  | .hbm, ⟨10, _⟩ => ⟨S_, .i32⟩
  | .hbm, ⟨11, _⟩ => ⟨S1000000x64, .i32⟩
  | .hbm, ⟨12, _⟩ => ⟨S1000000x64, .i32⟩
  | .hbm, ⟨13, _⟩ => ⟨S1000000x64, .i32⟩
  | .hbm, ⟨14, _⟩ => ⟨S1000000x64x1, .i32⟩
  | .hbm, ⟨15, _⟩ => ⟨S1000000x64, .f32⟩
  | .hbm, ⟨16, _⟩ => ⟨S_, .i32⟩
  | .hbm, ⟨17, _⟩ => ⟨S1000000x64, .i32⟩
  | .hbm, ⟨18, _⟩ => ⟨S1000000x64, .i1⟩
  | .hbm, ⟨19, _⟩ => ⟨S_, .f32⟩
  | .hbm, ⟨20, _⟩ => ⟨S1000000x64, .f32⟩
  | .hbm, ⟨21, _⟩ => ⟨S1000000x64, .f32⟩
  | .hbm, ⟨22, _⟩ => ⟨S1000000x63, .f32⟩
  | .hbm, ⟨23, _⟩ => ⟨S_, .f32⟩
  | .hbm, ⟨24, _⟩ => ⟨S1000000, .f32⟩
  | .hbm, ⟨25, _⟩ => ⟨S1000000x1, .f32⟩
  | .hbm, ⟨26, _⟩ => ⟨S1000000x1, .f32⟩
  | .hbm, ⟨27, _⟩ => ⟨S1000000x1, .i32⟩
  | .hbm, ⟨28, _⟩ => ⟨S1000000x63, .i32⟩
  | .hbm, ⟨29, _⟩ => ⟨S_, .i32⟩
  | .hbm, ⟨30, _⟩ => ⟨S1000000x63, .i32⟩
  | .hbm, ⟨31, _⟩ => ⟨S1000000x64, .i32⟩
  | .hbm, ⟨32, _⟩ => ⟨S_, .f32⟩
  | .hbm, ⟨33, _⟩ => ⟨S1000000x1, .f32⟩
  | .hbm, ⟨34, _⟩ => ⟨S1000000x1, .i1⟩
  | .hbm, ⟨35, _⟩ => ⟨S_, .f32⟩
  | .hbm, ⟨36, _⟩ => ⟨S1000000x64, .i1⟩
  | .hbm, ⟨37, _⟩ => ⟨S1000000x64, .f32⟩
  | .hbm, ⟨38, _⟩ => ⟨S1000000x64, .f32⟩
  | .hbm, ⟨39, _⟩ => ⟨S1000000x64, .i1⟩
  | .hbm, ⟨40, _⟩ => ⟨S1000000x64, .i32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_call1_v0 : Ref sig .tc := ⟨.hbm, 36, rfl⟩
abbrev main_call1_v1 : Ref sig .tc := ⟨.hbm, 37, rfl⟩
abbrev main_v23 : Ref sig .tc := ⟨.hbm, 38, rfl⟩
abbrev main_call2_v0 : Ref sig .tc := ⟨.hbm, 39, rfl⟩
abbrev main_v24 : Ref sig .tc := ⟨.hbm, 40, rfl⟩

abbrev nD : Nat := 1
abbrev τ : Topo := Topo.v7x

variable {F : FTy → Type} [FloatOps F]

class Facts₀ : Prop where
  shapeCasts_S1000000x1_S1000000 : S1000000x1.ShapeCasts S1000000
  bcast_S_S1000000x64 : S_.BroadcastsInDim S1000000x64 (![] : Fin 0 → Fin S1000000x64.rank)
  bcast_S1000000x64_S1000000x64x1_0_1 : S1000000x64.BroadcastsInDim S1000000x64x1 (![0, 1] : Fin 2 → Fin S1000000x64x1.rank)
  slices_S1000000x64_S1000000x63_0_1 : S1000000x64.Slices ![0, 1] S1000000x63
  reducesTo_S1000000x63_S1000000_d1 : S1000000x63.ReducesTo [1] S1000000
  h_S_ : 0 < S_.numel
  bcast_S1000000_S1000000x1_0 : S1000000.BroadcastsInDim S1000000x1 (![0] : Fin 1 → Fin S1000000x1.rank)
  slices_S1000000x64_S1000000x1_0_0 : S1000000x64.Slices ![0, 0] S1000000x1
  bcast_S_S1000000x63 : S_.BroadcastsInDim S1000000x63 (![] : Fin 0 → Fin S1000000x63.rank)
  concatenates_S1000000x1_S1000000x63_S1000000x64_d1 : Shape.Concatenates [S1000000x1, S1000000x63] S1000000x64 1
  bcast_S_S1000000x1 : S_.BroadcastsInDim S1000000x1 (![] : Fin 0 → Fin S1000000x1.rank)
  bcast_S1000000x1_S1000000x64_0_1 : S1000000x1.BroadcastsInDim S1000000x64 (![0, 1] : Fin 2 → Fin S1000000x64.rank)
  gather_S1000000_S1000000x64x1_S1000000x64_n_0_n_n_0_2_1_wf : GatherDims.WF S1000000 S1000000x64x1 S1000000x64 [] [0] [] [0] [] 2 ![1]

variable [Facts₀]

def gather_S1000000_S1000000x64x1_S1000000x64_n_0_n_n_0_2_1 : GatherDims S1000000 S1000000x64x1 S1000000x64 where
  offsetDims := []
  collapsedSliceDims := [0]
  operandBatchingDims := []
  startIndicesBatchingDims := []
  startIndexMap := [0]
  indexVectorDim := 2
  sliceSizes := ![1]
  wf := gather_S1000000_S1000000x64x1_S1000000x64_n_0_n_n_0_2_1_wf

class Facts : Prop extends Facts₀ where

variable [Facts]
-- ==== Proof.Packed.lean ====
/-
  Two consecutive rows of a [1000000, 64] array are ONE row of the row-major [500000, 128] array: row `r`, column `k` sits at
  packed row `r / 2`, lane `(r % 2) * 64 + k`; a [1000000, 1] column packs the same way into [500000, 2], row `r` at packed
  row `r / 2`, entry `r % 2`. So lanes 0..63 of a packed row belong to the even row and take entry 0 of the packed column, lanes
  64..127 to the odd row and take entry 1; lane 0 and lane 64 are the two rows' column 0.

  This file states, over the packed arrays, the two functions a masked update of the packed layout computes
  (`packedDist`, `packedNidx`), and reads them back through the reshape at row `r`, column `k` (`unpack_dist`,
  `unpack_nidx`): a row whose own entry of the column is below zero has its floats zeroed and its integers replaced by
  "column 0 kept, every other column -1"; any other row is kept.
-/
import Idealize.ShloMosaic.PureOps.Ideal
import Idealize.ShloMosaic.Lib.ValueIdx
import Idealize.ShloMosaic.Lib.Pipeline.Value

noncomputable section

namespace Cert.Packed

open Idealize.ShloMosaic Idealize.ShloMosaic.ValueIdx

abbrev SV64 : Shape := ⟨2, ![1000000, 64]⟩
abbrev SV1 : Shape := ⟨2, ![1000000, 1]⟩
abbrev SP128 : Shape := ⟨2, ![500000, 128]⟩
abbrev SP2 : Shape := ⟨2, ![500000, 2]⟩

/-! ## Lanes of a packed row -/

/-- Lane `q` is one of the first 64: the signed comparison of the lane number with 64, as a bit. -/
def firstHalf (q : Nat) : BitVec 1 := IntOp.cmpi .slt (BitVec.ofNat 32 q) 64#32

/-- Lane `q` is lane 0 or lane 64: the two rows' column 0. -/
def selfLane (q : Nat) : BitVec 1 :=
  IntOp.ori (IntOp.cmpi .eq (BitVec.ofNat 32 q) 0#32) (IntOp.cmpi .eq (BitVec.ofNat 32 q) 64#32)

theorem firstHalf_lo : ∀ k : Fin 64, firstHalf k.val = 1#1 := by decide +kernel
theorem firstHalf_hi : ∀ k : Fin 64, firstHalf (64 + k.val) = 0#1 := by decide +kernel
theorem selfLane_lo : ∀ k : Fin 64, selfLane k.val = if k.val = 0 then 1#1 else 0#1 := by decide +kernel
theorem selfLane_hi : ∀ k : Fin 64, selfLane (64 + k.val) = if k.val = 0 then 1#1 else 0#1 := by decide +kernel

/-! ## The masked update over the packed arrays -/

variable {F : FTy → Type} [FloatOps F]

/-- Packed row `a`, lane `q` is dropped when its own row's entry of the packed column `f2` — entry 0 for the first 64 lanes,
    entry 1 for the others — is below zero. -/
def dropAt (f2 : SP2.Idx → F .f32) (a : Fin 500000) (q : Fin 128) : BitVec 1 :=
  FloatOps.cmpf .olt (Scalar.select (firstHalf q.val) (f2 (ix2 a (0 : Fin 2))) (f2 (ix2 a (1 : Fin 2))))
    (FloatOps.ofBits .f32 0x00000000#32)

/-- The floats: a dropped entry becomes zero, any other is kept. -/
def packedDist (d2 : SP128.Idx → F .f32) (f2 : SP2.Idx → F .f32) : SP128.Idx → F .f32 := fun j =>
  Scalar.select (dropAt f2 (j 0) (j 1)) (FloatOps.ofBits .f32 0x00000000#32) (d2 j)

/-- The integers: a dropped entry becomes its row's column 0 (lane 0 of the first half, lane 64 of the second) if it is
    that column, and -1 otherwise; any other entry is kept. -/
def packedNidx (n2 : SP128.Idx → BitVec 32) (f2 : SP2.Idx → F .f32) : SP128.Idx → BitVec 32 := fun j =>
  Scalar.select (dropAt f2 (j 0) (j 1))
    (Scalar.select (selfLane (j 1).val)
      (Scalar.select (firstHalf (j 1).val) (n2 (ix2 (j 0 : Fin 500000) (0 : Fin 128))) (n2 (ix2 (j 0 : Fin 500000) (64 : Fin 128))))
      4294967295#32)
    (n2 j)

/-! ## Read back through the reshape -/

/-- Where row `r`, column `k` of the [1000000, 64] array sits in the packed array. -/
abbrev packIdx (r : Fin 1000000) (k : Fin 64) : SP128.Idx :=
  ix2 (⟨r.val / 2, by have := r.isLt; omega⟩ : Fin 500000) (⟨r.val % 2 * 64 + k.val, by have := k.isLt; omega⟩ : Fin 128)

section
variable {α : Type}

/-- The packed array at that place is the array at `(r, k)`. -/
theorem pack_apply (hc : SV64.ShapeCasts SP128) (x : SV64.Idx → α) (r : Fin 1000000) (k : Fin 64) :
    shapeCast SP128 x hc (packIdx r k) = x (ix2 r k) :=
  shapeCast_apply x hc (packIdx r k) (ix2 r k) (by
    rw [Shape.rowMajor_val_two, Shape.rowMajor_val_two]
    show r.val * 64 + k.val = r.val / 2 * 128 + (r.val % 2 * 64 + k.val)
    omega)

/-- The packed array at packed row `r / 2`, lane `(r % 2) * 64` is the array at `(r, 0)`. -/
theorem pack_apply_self (hc : SV64.ShapeCasts SP128) (x : SV64.Idx → α) (r : Fin 1000000) (q : Fin 128)
    (hq : q.val = r.val % 2 * 64) :
    shapeCast SP128 x hc (ix2 (⟨r.val / 2, by have := r.isLt; omega⟩ : Fin 500000) q) = x (ix2 r (0 : Fin 64)) :=
  shapeCast_apply x hc _ (ix2 r (0 : Fin 64)) (by
    rw [Shape.rowMajor_val_two, Shape.rowMajor_val_two]
    show r.val * 64 + 0 = r.val / 2 * 128 + q.val
    omega)

/-- The packed column at packed row `r / 2`, entry `r % 2` is the column at row `r`. -/
theorem packCol_apply (hc : SV1.ShapeCasts SP2) (x : SV1.Idx → α) (r : Fin 1000000) (h : Fin 2) (hh : h.val = r.val % 2) :
    shapeCast SP2 x hc (ix2 (⟨r.val / 2, by have := r.isLt; omega⟩ : Fin 500000) h) = x (ix2 r (0 : Fin 1)) :=
  shapeCast_apply x hc _ (ix2 r (0 : Fin 1)) (by
    rw [Shape.rowMajor_val_two, Shape.rowMajor_val_two]
    show r.val * 1 + 0 = r.val / 2 * 2 + h.val
    omega)

/-- The [1000000, 64] view of a packed array at `(r, k)` is the packed array at `packIdx r k`. -/
theorem unpack_apply (hb : SP128.ShapeCasts SV64) (y : SP128.Idx → α) (r : Fin 1000000) (k : Fin 64) :
    shapeCast SV64 y hb (ix2 r k) = y (packIdx r k) :=
  shapeCast_apply y hb (ix2 r k) (packIdx r k) (by
    rw [Shape.rowMajor_val_two, Shape.rowMajor_val_two]
    show r.val / 2 * 128 + (r.val % 2 * 64 + k.val) = r.val * 64 + k.val
    omega)

end

/-- The drop bit of the place of `(r, k)`, over the packed column of `diff`, is "row `r`'s entry of `diff` is below zero". -/
theorem dropAt_pack (hc1 : SV1.ShapeCasts SP2) (diff : SV1.Idx → F .f32) (r : Fin 1000000) (k : Fin 64) :
    dropAt (shapeCast SP2 diff hc1) (⟨r.val / 2, by have := r.isLt; omega⟩ : Fin 500000)
        (⟨r.val % 2 * 64 + k.val, by have := k.isLt; omega⟩ : Fin 128)
      = FloatOps.cmpf .olt (diff (ix2 r (0 : Fin 1))) (FloatOps.ofBits .f32 0x00000000#32) := by
  unfold dropAt
  rcases Nat.mod_two_eq_zero_or_one r.val with h | h
  · have e : r.val % 2 * 64 + k.val = k.val := by omega
    rw [show firstHalf (⟨r.val % 2 * 64 + k.val, by have := k.isLt; omega⟩ : Fin 128).val = 1#1 from by
      show firstHalf (r.val % 2 * 64 + k.val) = 1#1; rw [e]; exact firstHalf_lo k]
    rw [select_one, packCol_apply hc1 diff r (0 : Fin 2) (by show 0 = r.val % 2; omega)]
  · have e : r.val % 2 * 64 + k.val = 64 + k.val := by omega
    rw [show firstHalf (⟨r.val % 2 * 64 + k.val, by have := k.isLt; omega⟩ : Fin 128).val = 0#1 from by
      show firstHalf (r.val % 2 * 64 + k.val) = 0#1; rw [e]; exact firstHalf_hi k]
    rw [select_zero, packCol_apply hc1 diff r (1 : Fin 2) (by show 1 = r.val % 2; omega)]

/-- THE FLOATS, UNPACKED: row `r` is zeroed when its entry of `diff` is below zero, kept otherwise. -/
theorem unpack_dist (hc : SV64.ShapeCasts SP128) (hc1 : SV1.ShapeCasts SP2) (hb : SP128.ShapeCasts SV64)
    (dist : SV64.Idx → F .f32) (diff : SV1.Idx → F .f32) (r : Fin 1000000) (k : Fin 64) :
    shapeCast SV64 (packedDist (shapeCast SP128 dist hc) (shapeCast SP2 diff hc1)) hb (ix2 r k)
      = Scalar.select (FloatOps.cmpf .olt (diff (ix2 r (0 : Fin 1))) (FloatOps.ofBits .f32 0x00000000#32))
          (FloatOps.ofBits .f32 0x00000000#32) (dist (ix2 r k)) := by
  rw [unpack_apply hb _ r k]
  show Scalar.select (dropAt (shapeCast SP2 diff hc1) (⟨r.val / 2, _⟩ : Fin 500000) (⟨r.val % 2 * 64 + k.val, _⟩ : Fin 128)) _
    (shapeCast SP128 dist hc (packIdx r k)) = _
  rw [dropAt_pack hc1 diff r k, pack_apply hc dist r k]

/-- THE INTEGERS, UNPACKED: where row `r`'s entry of `diff` is below zero, column 0 is kept and every other column is -1;
    any other row is kept. -/
theorem unpack_nidx (hc : SV64.ShapeCasts SP128) (hc1 : SV1.ShapeCasts SP2) (hb : SP128.ShapeCasts SV64)
    (nidx : SV64.Idx → BitVec 32) (diff : SV1.Idx → F .f32) (r : Fin 1000000) (k : Fin 64) :
    shapeCast SV64 (packedNidx (shapeCast SP128 nidx hc) (shapeCast SP2 diff hc1)) hb (ix2 r k)
      = Scalar.select (FloatOps.cmpf .olt (diff (ix2 r (0 : Fin 1))) (FloatOps.ofBits .f32 0x00000000#32))
          (if k.val = 0 then nidx (ix2 r (0 : Fin 64)) else 4294967295#32) (nidx (ix2 r k)) := by
  rw [unpack_apply hb _ r k]
  show Scalar.select (dropAt (shapeCast SP2 diff hc1) (⟨r.val / 2, _⟩ : Fin 500000) (⟨r.val % 2 * 64 + k.val, _⟩ : Fin 128))
    (Scalar.select (selfLane (r.val % 2 * 64 + k.val))
      (Scalar.select (firstHalf (r.val % 2 * 64 + k.val))
        (shapeCast SP128 nidx hc (ix2 (⟨r.val / 2, _⟩ : Fin 500000) (0 : Fin 128)))
        (shapeCast SP128 nidx hc (ix2 (⟨r.val / 2, _⟩ : Fin 500000) (64 : Fin 128))))
      4294967295#32)
    (shapeCast SP128 nidx hc (packIdx r k)) = _
  rw [dropAt_pack hc1 diff r k, pack_apply hc nidx r k]
  congr 1
  rcases Nat.mod_two_eq_zero_or_one r.val with h | h
  · have e : r.val % 2 * 64 + k.val = k.val := by omega
    rw [e, firstHalf_lo k, selfLane_lo k, select_one,
      pack_apply_self hc nidx r (0 : Fin 128) (by show 0 = r.val % 2 * 64; omega)]
    by_cases hk : k.val = 0
    · rw [if_pos hk, if_pos hk, select_one]
    · rw [if_neg hk, if_neg hk, select_zero]
  · have e : r.val % 2 * 64 + k.val = 64 + k.val := by omega
    rw [e, firstHalf_hi k, selfLane_hi k, select_zero,
      pack_apply_self hc nidx r (64 : Fin 128) (by show 64 = r.val % 2 * 64; omega)]
    by_cases hk : k.val = 0
    · rw [if_pos hk, if_pos hk, select_one]
    · rw [if_neg hk, if_neg hk, select_zero]

end Cert.Packed

end
-- ==== Proof.Body.lean ====
/-
  The kernel body, block by block. Its two stores write, at row `p` and lane `q` of a [5000, 128] block, a select on ONE bit:
  "the difference of this lane's row is below zero", where the difference is column 0 of the [5000, 2] block for the first 64 lanes
  and column 1 for the others. The float store zeroes a dropped entry; the integer store replaces it by the row's column 0
  (lane 0 or lane 64 of the same block row) on those two lanes and by -1 on every other lane. So each block is the
  restriction of `Packed.packedDist` / `Packed.packedNidx` of the WHOLE packed arrays: block `t` covers packed rows
  `5000 t … 5000 t + 4999` of all three inputs, and a row's two columns, its lane 0 and its lane 64 lie in the same block.
  The 100 blocks tile the packed arrays, so after the run the two output arrays ARE those functions.
-/
import proofs.«411835_j36094905155926_3_alg».proof.Proof.Gen.KernelIdeal.Frame
import proofs.«411835_j36094905155926_3_alg».proof.Proof.Packed
import Idealize.ShloMosaic.Lib.ValueLayout

set_option maxRecDepth 16384

noncomputable section

namespace Cert.KernelIdeal.Body

open Cert.KernelIdeal Cert.KernelIdeal.Gen Cert.Packed
open Idealize.ShloMosaic Idealize.ShloMosaic.TcCoe Idealize.ShloMosaic.ValueIdx
open Idealize.ShloMosaic.Pipeline (Dat)

variable {F : FTy → Type} [FloatOps F]

/-! ## A column broadcast over the lanes, and the lane number -/

/-- A [5000, 1] column broadcast to [5000, 128] reads, at row `p` and any lane, the column at row `p`. -/
theorem column_apply {α : Type} (x : S5000x1.Idx → α) (h : S5000x1.Broadcasts S5000x128) (p : Fin 5000) (q : Fin 128) :
    broadcastTo S5000x128 x h (ix2 p q) = x (ix2 p (0 : Fin 1)) :=
  broadcastTo_apply x h (ix2 p q) (ix2 p (0 : Fin 1)) (fun a => by
    match a with
    | ⟨0, _⟩ => rfl
    | ⟨1, _⟩ => rfl)

/-- The lane counter at row `p`, lane `q` is `q`. -/
theorem lane_apply (h : S5000x128.Iotas .tc 32 [1]) (p : Fin 5000) (q : Fin 128) :
    iota .tc S5000x128 32 [1] h (ix2 p q) = BitVec.ofNat 32 q.val :=
  iota_single_apply .tc S5000x128 32 1 h (ix2 p q)

/-! ## The payloads at row `p`, lane `q` of the block -/

/-- The drop bit. -/
theorem pay2_apply (v7 v11 : Vec F S5000x1 .f32) (p : Fin 5000) (q : Fin 128) :
    k0_pay2 v7 v11 (ix2 p q)
      = FloatOps.cmpf .olt (Scalar.select (firstHalf q.val) (v7 (ix2 p (0 : Fin 1))) (v11 (ix2 p (0 : Fin 1))))
          (FloatOps.ofBits .f32 0x00000000#32) := by
  unfold k0_pay2 k0_pay1
  simp only [shapeCast_self]
  show FloatOps.cmpf .olt (Scalar.select (IntOp.cmpi .slt (iota .tc S5000x128 32 [1] iota_S5000x128_d1_w32 (ix2 p q)) 64#32)
    (broadcastTo S5000x128 v7 broadcasts_S5000x1_S5000x128 (ix2 p q)) (broadcastTo S5000x128 v11 broadcasts_S5000x1_S5000x128 (ix2 p q))) _ = _
  rw [lane_apply, column_apply, column_apply]
  rfl

/-- The float store's payload. -/
theorem pay3_apply (v0 : Vec F S5000x128 .f32) (v7 v11 : Vec F S5000x1 .f32) (p : Fin 5000) (q : Fin 128) :
    k0_pay3 v0 v7 v11 (ix2 p q)
      = Scalar.select (k0_pay2 v7 v11 (ix2 p q)) (FloatOps.ofBits .f32 0x00000000#32) (v0 (ix2 p q)) := by
  unfold k0_pay3
  simp only [shapeCast_self]
  rfl

/-- The integer store's payload. -/
theorem pay4_apply (v2 : Vec F S5000x128 .i32) (v7 v11 : Vec F S5000x1 .f32) (p : Fin 5000) (q : Fin 128) :
    k0_pay4 v2 v7 v11 (ix2 p q)
      = Scalar.select (k0_pay2 v7 v11 (ix2 p q))
          (Scalar.select (selfLane q.val)
            (Scalar.select (firstHalf q.val) (v2 (ix2 p (0 : Fin 128))) (v2 (ix2 p (64 : Fin 128)))) 4294967295#32)
          (v2 (ix2 p q)) := by
  unfold k0_pay4 k0_pay1
  simp only [shapeCast_self]
  show Scalar.select (k0_pay2 v7 v11 (ix2 p q))
    (Scalar.select (IntOp.ori (IntOp.cmpi .eq (iota .tc S5000x128 32 [1] iota_S5000x128_d1_w32 (ix2 p q)) 0#32)
        (IntOp.cmpi .eq (iota .tc S5000x128 32 [1] iota_S5000x128_d1_w32 (ix2 p q)) 64#32))
      (Scalar.select (IntOp.cmpi .slt (iota .tc S5000x128 32 [1] iota_S5000x128_d1_w32 (ix2 p q)) 64#32)
        (broadcastTo S5000x128 (extractStridedSlice S5000x1 ![0, 0] v2 slices_S5000x128_o0_0_S5000x1) broadcasts_S5000x1_S5000x128 (ix2 p q))
        (broadcastTo S5000x128 (extractStridedSlice S5000x1 ![0, 64] v2 slices_S5000x128_o0_64_S5000x1) broadcasts_S5000x1_S5000x128 (ix2 p q)))
      4294967295#32) (v2 (ix2 p q)) = _
  rw [lane_apply, column_apply, column_apply,
    slice2_axis1_apply 0 v2 slices_S5000x128_o0_0_S5000x1 p (0 : Fin 1) (0 : Fin 128) rfl,
    slice2_axis1_apply 64 v2 slices_S5000x128_o0_64_S5000x1 p (0 : Fin 1) (64 : Fin 128) rfl]
  rfl

/-! ## The payloads over a block's own contents -/

/-- The float store over the block `x0` of the floats and the block `x2` of the two-column differences. -/
theorem block3 (x0 : Vec F S5000x128 .f32) (x2 : Vec F S5000x2 .f32) (j : S5000x128.Idx) :
    k0_pay3 x0 (View.ld x2 r0_1) (View.ld x2 r0_2) j
      = Scalar.select (FloatOps.cmpf .olt (Scalar.select (firstHalf (j 1).val) (x2 (ix2 (j 0 : Fin 5000) (0 : Fin 2))) (x2 (ix2 (j 0 : Fin 5000) (1 : Fin 2))))
          (FloatOps.ofBits .f32 0x00000000#32)) (FloatOps.ofBits .f32 0x00000000#32) (x0 j) := by
  obtain ⟨p, q, rfl⟩ : ∃ (p : Fin 5000) (q : Fin 128), j = ix2 p q := ⟨j 0, j 1, eq_ix2 j⟩
  rw [pay3_apply, pay2_apply]
  have e1 : View.ld x2 r0_1 (ix2 p (0 : Fin 1)) = x2 (ix2 p (0 : Fin 2)) :=
    congrArg x2 (funext fun a => Fin.ext (by
      match a with
      | ⟨0, _⟩ => show 0 + 1 * p.val = p.val; omega
      | ⟨1, _⟩ => rfl))
  have e2 : View.ld x2 r0_2 (ix2 p (0 : Fin 1)) = x2 (ix2 p (1 : Fin 2)) :=
    congrArg x2 (funext fun a => Fin.ext (by
      match a with
      | ⟨0, _⟩ => show 0 + 1 * p.val = p.val; omega
      | ⟨1, _⟩ => rfl))
  rw [e1, e2]

/-- The integer store over the block `x1` of the integers and the block `x2` of the differences. -/
theorem block4 (x1 : Vec F S5000x128 .i32) (x2 : Vec F S5000x2 .f32) (j : S5000x128.Idx) :
    k0_pay4 x1 (View.ld x2 r0_1) (View.ld x2 r0_2) j
      = Scalar.select (FloatOps.cmpf .olt (Scalar.select (firstHalf (j 1).val) (x2 (ix2 (j 0 : Fin 5000) (0 : Fin 2))) (x2 (ix2 (j 0 : Fin 5000) (1 : Fin 2))))
          (FloatOps.ofBits .f32 0x00000000#32))
          (Scalar.select (selfLane (j 1).val)
            (Scalar.select (firstHalf (j 1).val) (x1 (ix2 (j 0 : Fin 5000) (0 : Fin 128))) (x1 (ix2 (j 0 : Fin 5000) (64 : Fin 128)))) 4294967295#32)
          (x1 j) := by
  obtain ⟨p, q, rfl⟩ : ∃ (p : Fin 5000) (q : Fin 128), j = ix2 p q := ⟨j 0, j 1, eq_ix2 j⟩
  rw [pay4_apply, pay2_apply]
  have e1 : View.ld x2 r0_1 (ix2 p (0 : Fin 1)) = x2 (ix2 p (0 : Fin 2)) :=
    congrArg x2 (funext fun a => Fin.ext (by
      match a with
      | ⟨0, _⟩ => show 0 + 1 * p.val = p.val; omega
      | ⟨1, _⟩ => rfl))
  have e2 : View.ld x2 r0_2 (ix2 p (0 : Fin 1)) = x2 (ix2 p (1 : Fin 2)) :=
    congrArg x2 (funext fun a => Fin.ext (by
      match a with
      | ⟨0, _⟩ => show 0 + 1 * p.val = p.val; omega
      | ⟨1, _⟩ => rfl))
  rw [e1, e2]

/-! ## From blocks to the arrays -/

variable (m : (ℓ : Loc nD τ sig) → Buf (Elt F) ℓ)

/-- The zero offsets of a whole-block access, however spelt. -/
theorem hz : (![0, 0] : Fin 2 → Nat) = fun _ => 0 := funext fun a => by fin_cases a <;> rfl

/-- At point `t` every window is at block row `t`, block column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- WHAT POINT `t` WRITES BACK to the float output is block `t` of the masked update of the packed floats by the packed differences:
    the block's rows are packed rows `5000 t + p` of all three inputs, its lanes the arrays' lanes. -/
theorem flushed3_eq (c : Dev nD) (t : Fin cfg0.N) :
    (dats m 0 c).flushed 3 t = ((cfg0.win 3).blk t).view.read (Elt F) (packedDist (V m c main_v17) (V m c main_v19)) := by
  show (cfg0.win 3).cut (grid0.coords t) ((dats m 0 c).after 3 t) = _
  rw [after0_3]
  unfold out0_3
  rw [View.canon_unit_zero hz]
  simp only [View.ld_unit_zero (S := S5000x128) hz]
  obtain ⟨e00, e01, e10, e11, e20, e21, e30, e31, e40, e41⟩ := idx_facts t
  funext j
  show k0_pay3 (iblk m c 0 t) (View.ld (iblk m c 2 t) r0_1) (View.ld (iblk m c 2 t) r0_2) j
      = packedDist (V m c main_v17) (V m c main_v19) (((cfg0.win 3).blk t).view.emb j)
  refine (block3 (iblk m c 0 t) (iblk m c 2 t) j).trans ?_
  have hj0 : (j 0).val < 5000 := (j 0).isLt
  have hj1 : (j 1).val < 128 := (j 1).isLt
  have h0 : iblk m c 0 t j = V m c main_v17 (((cfg0.win 3).blk t).view.emb j) := by
    show V m c main_v17 (((cfg0.win 0).blk t).view.emb j) = _
    refine congrArg (V m c main_v17) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * (j 1).val = win0_3.index t (1 : Fin 2) * 128 + 1 * (j 1).val; omega
  have h2 : ∀ h : Fin 2, iblk m c 2 t (ix2 (j 0 : Fin 5000) h)
      = V m c main_v19 (ix2 ((((cfg0.win 3).blk t).view.emb j) 0 : Fin 500000) h) := by
    intro h
    show V m c main_v19 (((cfg0.win 2).blk t).view.emb (ix2 (j 0 : Fin 5000) h)) = _
    refine congrArg (V m c main_v19) (funext fun a => Fin.ext ?_)
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 2 + 1 * h.val = h.val; omega
  have hl : ((((cfg0.win 3).blk t).view.emb j) 1).val = (j 1).val := by
    show win0_3.index t (1 : Fin 2) * 128 + 1 * (j 1).val = (j 1).val; omega
  rw [h0, h2 0, h2 1]
  unfold packedDist dropAt
  rw [hl]

/-- WHAT POINT `t` WRITES BACK to the integer output is block `t` of the masked update of the packed integers: lane 0 and lane 64 of
    a block row are lane 0 and lane 64 of the same packed row. -/
theorem flushed4_eq (c : Dev nD) (t : Fin cfg0.N) :
    (dats m 0 c).flushed 4 t = ((cfg0.win 4).blk t).view.read (Elt F) (packedNidx (V m c main_v18) (V m c main_v19)) := by
  show (cfg0.win 4).cut (grid0.coords t) ((dats m 0 c).after 4 t) = _
  rw [after0_4]
  unfold out0_4
  rw [View.canon_unit_zero hz]
  simp only [View.ld_unit_zero (S := S5000x128) hz]
  obtain ⟨e00, e01, e10, e11, e20, e21, e30, e31, e40, e41⟩ := idx_facts t
  funext j
  show k0_pay4 (iblk m c 1 t) (View.ld (iblk m c 2 t) r0_1) (View.ld (iblk m c 2 t) r0_2) j
      = packedNidx (V m c main_v18) (V m c main_v19) (((cfg0.win 4).blk t).view.emb j)
  refine (block4 (iblk m c 1 t) (iblk m c 2 t) j).trans ?_
  have hj0 : (j 0).val < 5000 := (j 0).isLt
  have hj1 : (j 1).val < 128 := (j 1).isLt
  have h1 : iblk m c 1 t j = V m c main_v18 (((cfg0.win 4).blk t).view.emb j) := by
    show V m c main_v18 (((cfg0.win 1).blk t).view.emb j) = _
    refine congrArg (V m c main_v18) (funext fun a => Fin.ext ?_)
    match a with
    | ⟨0, _⟩ => show win0_1.index t (0 : Fin 2) * 5000 + 1 * (j 0).val = win0_4.index t (0 : Fin 2) * 5000 + 1 * (j 0).val; omega
    | ⟨1, _⟩ => show win0_1.index t (1 : Fin 2) * 128 + 1 * (j 1).val = win0_4.index t (1 : Fin 2) * 128 + 1 * (j 1).val; omega
  have h1q : ∀ q : Fin 128, iblk m c 1 t (ix2 (j 0 : Fin 5000) q)
      = V m c main_v18 (ix2 ((((cfg0.win 4).blk t).view.emb j) 0 : Fin 500000) q) := by
    intro q
    show V m c main_v18 (((cfg0.win 1).blk t).view.emb (ix2 (j 0 : Fin 5000) q)) = _
    refine congrArg (V m c main_v18) (funext fun a => Fin.ext ?_)
    match a with
    | ⟨0, _⟩ => show win0_1.index t (0 : Fin 2) * 5000 + 1 * (j 0).val = win0_4.index t (0 : Fin 2) * 5000 + 1 * (j 0).val; omega
    | ⟨1, _⟩ => show win0_1.index t (1 : Fin 2) * 128 + 1 * q.val = q.val; omega
  have h2 : ∀ h : Fin 2, iblk m c 2 t (ix2 (j 0 : Fin 5000) h)
      = V m c main_v19 (ix2 ((((cfg0.win 4).blk t).view.emb j) 0 : Fin 500000) h) := by
    intro h
    show V m c main_v19 (((cfg0.win 2).blk t).view.emb (ix2 (j 0 : Fin 5000) h)) = _
    refine congrArg (V m c main_v19) (funext fun a => Fin.ext ?_)
    match a with
    | ⟨0, _⟩ => show win0_2.index t (0 : Fin 2) * 5000 + 1 * (j 0).val = win0_4.index t (0 : Fin 2) * 5000 + 1 * (j 0).val; omega
    | ⟨1, _⟩ => show win0_2.index t (1 : Fin 2) * 2 + 1 * h.val = h.val; omega
  have hl : ((((cfg0.win 4).blk t).view.emb j) 1).val = (j 1).val := by
    show win0_4.index t (1 : Fin 2) * 128 + 1 * (j 1).val = (j 1).val; omega
  rw [h1, h1q 0, h1q 64, h2 0, h2 1]
  unfold packedNidx dropAt
  rw [hl]

/-- An index of a packed array is in point `t`'s block iff each coordinate is in the block's range on its axis. -/
theorem mem_blk3 (t : Fin cfg0.N) (i : S500000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v20_0).slice (win0_3.rect t)).set ↔ _
  rw [View.set_slice_whole, Rect.mem_set_unit]
  exact Iff.rfl

/-- The same for the integer output's blocks. -/
theorem mem_blk4 (t : Fin cfg0.N) (i : S500000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v20_1).slice (win0_4.rect t)).set ↔ _
  rw [View.set_slice_whole, Rect.mem_set_unit]
  exact Iff.rfl

/-- The point whose block holds packed row `a`: `a / 5000`. -/
abbrev pointOf (i : S500000x128.Idx) : Fin cfg0.N :=
  ⟨(i 0).val / 5000, by have h : (i 0).val < 500000 := (i 0).isLt; have := N_0; show _ < grid0.N; omega⟩

/-- Every index of the float output is in some point's block. -/
theorem cover3 (i : S500000x128.Idx) : ∃ t : Fin cfg0.N, (cfg0.win 3).flush t = true ∧ i ∈ ((cfg0.win 3).blk t).view.set := by
  have hi0 : (i 0).val < 500000 := (i 0).isLt
  have hi1 : (i 1).val < 128 := (i 1).isLt
  obtain ⟨-, -, -, -, -, -, e30, e31, -, -⟩ := idx_facts (pointOf i)
  have ht : (pointOf i).val = (i 0).val / 5000 := rfl
  refine ⟨pointOf i, flush0_3 _, ?_⟩
  rw [mem_blk3]
  intro a
  match a with
  | ⟨0, _⟩ => show win0_3.index (pointOf i) (0 : Fin 2) * 5000 ≤ (i 0).val ∧ (i 0).val < win0_3.index (pointOf i) (0 : Fin 2) * 5000 + 5000; omega
  | ⟨1, _⟩ => show win0_3.index (pointOf i) (1 : Fin 2) * 128 ≤ (i 1).val ∧ (i 1).val < win0_3.index (pointOf i) (1 : Fin 2) * 128 + 128; omega

/-- Every index of the integer output is in some point's block. -/
theorem cover4 (i : S500000x128.Idx) : ∃ t : Fin cfg0.N, (cfg0.win 4).flush t = true ∧ i ∈ ((cfg0.win 4).blk t).view.set := by
  have hi0 : (i 0).val < 500000 := (i 0).isLt
  have hi1 : (i 1).val < 128 := (i 1).isLt
  obtain ⟨-, -, -, -, -, -, -, -, e40, e41⟩ := idx_facts (pointOf i)
  have ht : (pointOf i).val = (i 0).val / 5000 := rfl
  refine ⟨pointOf i, flush0_4 _, ?_⟩
  rw [mem_blk4]
  intro a
  match a with
  | ⟨0, _⟩ => show win0_4.index (pointOf i) (0 : Fin 2) * 5000 ≤ (i 0).val ∧ (i 0).val < win0_4.index (pointOf i) (0 : Fin 2) * 5000 + 5000; omega
  | ⟨1, _⟩ => show win0_4.index (pointOf i) (1 : Fin 2) * 128 ≤ (i 1).val ∧ (i 1).val < win0_4.index (pointOf i) (1 : Fin 2) * 128 + 128; omega

/-- THE FLOAT OUTPUT after the run: the masked update of the packed floats by the packed differences, as the region finds them. -/
theorem final3 (c : Dev nD) : (dats m 0 c).arrAt 3 cfg0.N = packedDist (V m c main_v17) (V m c main_v19) :=
  (dats m 0 c).arrAt_eq_of_cover 3 _ (fun t _ => flushed3_eq m c t) cover3

/-- THE INTEGER OUTPUT after the run: the masked update of the packed integers by the packed differences. -/
theorem final4 (c : Dev nD) : (dats m 0 c).arrAt 4 cfg0.N = packedNidx (V m c main_v18) (V m c main_v19) :=
  (dats m 0 c).arrAt_eq_of_cover 4 _ (fun t _ => flushed4_eq m c t) cover4

end Cert.KernelIdeal.Body

end
-- ==== Proof.Prefix.lean ====
/-
  What the kernel program's host lines compute before the region, as terms of the argument arrays: for every row, the DIFFERENCE
  between the row's score and the largest score among its neighbours in columns 1..63. A neighbour's score is gathered from the score
  column at the neighbour's index; a negative index stands for "no neighbour" and counts as -10000.
-/
import proofs.«411835_j36094905155926_3_alg».proof.Proof.Gen.KernelIdeal

noncomputable section

namespace Cert.KernelIdeal.Prefix

open Cert.KernelIdeal Cert.KernelIdeal.Gen Idealize.ShloMosaic

variable {F : FTy → Type} [FloatOps F]

/-- The neighbour columns 1..63 of the integer array. -/
def nbrIdx (nidx : IVec S1000000x64 32) : IVec S1000000x63 32 :=
  extractStridedSlice S1000000x63 ![0, 1] nidx slices_S1000000x64_S1000000x63_0_1

/-- A neighbour index made a position in the score column: negative ones raised to 0, and (what indexing adds) a position
    still negative moved up by the column's length. -/
def nbrPos (nidx : IVec S1000000x64 32) : IVec S1000000x63 32 :=
  select (cmpi .slt (maxsi (nbrIdx nidx) (broadcastInDim S1000000x63 ![] bcast_S_S1000000x63 (constantI S_ 32 0#32)))
      (broadcastInDim S1000000x63 ![] bcast_S_S1000000x63 (constantI S_ 32 0#32)))
    (addi (maxsi (nbrIdx nidx) (broadcastInDim S1000000x63 ![] bcast_S_S1000000x63 (constantI S_ 32 0#32)))
      (broadcastInDim S1000000x63 ![] bcast_S_S1000000x63 (constantI S_ 32 1000000#32)))
    (maxsi (nbrIdx nidx) (broadcastInDim S1000000x63 ![] bcast_S_S1000000x63 (constantI S_ 32 0#32)))

/-- The neighbours' scores: -10000 where the index is negative, the gathered score otherwise. -/
def nbrScores (nidx : IVec S1000000x64 32) (score : FVec F S1000000x1 .f32) : FVec F S1000000x63 .f32 :=
  select (cmpi .slt (nbrIdx nidx) (broadcastInDim S1000000x63 ![] bcast_S_S1000000x63 (constantI S_ 32 0#32)))
    (broadcastInDim S1000000x63 ![] bcast_S_S1000000x63 (constant S_ .f32 0xC61C4000#32))
    (Host.gather gather_S1000000_S1000000x63x1_S1000000x63_n_0_n_n_0_2_1 (shapeCast S1000000 score shapeCasts_S1000000x1_S1000000)
      (broadcastInDim S1000000x63x1 ![0, 1] bcast_S1000000x63_S1000000x63x1_0_1 (nbrPos nidx)))

/-- The largest of a row's neighbour scores (from -∞). -/
def maxNbr (nidx : IVec S1000000x64 32) (score : FVec F S1000000x1 .f32) : FVec F S1000000 .f32 :=
  Host.reduce FloatOps.maximumf (nbrScores nidx score) (constant S_ .f32 0xFF800000#32) reducesTo_S1000000x63_S1000000_d1 h_S_

/-- A row's score less the largest of its neighbours' scores. -/
def diff (nidx : IVec S1000000x64 32) (score : FVec F S1000000x1 .f32) : FVec F S1000000x1 .f32 :=
  subf score (broadcastInDim S1000000x1 ![0] bcast_S1000000_S1000000x1_0 (maxNbr nidx score))

end Cert.KernelIdeal.Prefix

end
-- ==== Proof.KernelRun.lean ====
/-
  The kernel program around its region. Before the region the host computes, for every row, the DIFFERENCE between the row's
  score and the largest score among its neighbours in columns 1..63 (a neighbour's score is gathered from the score column at the
  neighbour's index; a negative index stands for "no neighbour" and counts as -10000), and packs the floats, the integers and
  the differences two rows to a packed row. After the region it unpacks the two outputs. Here: what the three packed arrays
  hold when the region is entered, and the two results after the run as functions of the arguments.
-/
import proofs.«411835_j36094905155926_3_alg».proof.Proof.Body
import proofs.«411835_j36094905155926_3_alg».proof.Proof.Prefix
import Idealize.ShloMosaic.Lib.StableHlo.Run

set_option maxRecDepth 16384

noncomputable section

namespace Cert.KernelIdeal.KernelRun

open Cert.KernelIdeal Cert.KernelIdeal.Gen Cert.KernelIdeal.Body Cert.KernelIdeal.Prefix Cert.Packed
open Idealize.ShloMosaic Idealize.ShloMosaic.TcCoe Idealize.ShloMosaic.ValueIdx Idealize.ShloMosaic.StableHlo Idealize.SL.Sem

variable {F : FTy → Type} [FloatOps F]

/-! ## The packed arrays as the region finds them -/

variable (m : (ℓ : Loc nD τ sig) → Buf (Elt F) ℓ) (ρ : Dev nD → PrngReg)

/-- The packed floats: the float argument, two rows to a packed row. -/
theorem V_v17 (c : Dev nD) : V m c main_v17
    = shapeCast S500000x128 (m ((c : Thread nD τ).loc main_arg0)) shapeCasts_S1000000x64_S500000x128 := by
  dsimp only [V, V0]
  simp only [hostOps0, hostOps0_1, hostOps0_2, List.flatten_cons, List.flatten_nil, List.append_nil, List.cons_append,
    List.nil_append]
  after_results
  rfl

/-- The packed integers: the integer argument, packed the same way. -/
theorem V_v18 (c : Dev nD) : V m c main_v18
    = shapeCast S500000x128 (m ((c : Thread nD τ).loc main_arg1)) shapeCasts_S1000000x64_S500000x128 := by
  dsimp only [V, V0]
  simp only [hostOps0, hostOps0_1, hostOps0_2, List.flatten_cons, List.flatten_nil, List.append_nil, List.cons_append,
    List.nil_append]
  after_results
  rfl

set_option maxHeartbeats 4000000 in
/-- The packed differences: the rows' differences of the arguments, two rows to a packed row of two entries. -/
theorem V_v19 (c : Dev nD) : V m c main_v19
    = shapeCast S500000x2 (diff (m ((c : Thread nD τ).loc main_arg1)) (m ((c : Thread nD τ).loc main_arg2))) shapeCasts_S1000000x1_S500000x2 := by
  dsimp only [V, V0]
  simp only [hostOps0, hostOps0_1, hostOps0_2, List.flatten_cons, List.flatten_nil, List.append_nil, List.cons_append,
    List.nil_append]
  after_results
  rfl

/-! ## The lines after the region, and the run -/

/-- The float result: the region's float output, which ends at the masked update (`Body.final3`), unpacked. -/
theorem tail_v21 (c : Dev nD) :
    Pipeline.afterTail₀ cfgs (dats m) 0 (V0 m) [hostOps1] c main_v21
      = shapeCast S1000000x64 (packedDist (V m c main_v17) (V m c main_v19)) shapeCasts_S500000x128_S1000000x64 := by
  unfold Pipeline.afterTail₀
  show StableHlo.after hostOps1 _ (Proc.devRef .tc main_v21) = _
  after_results
  show shapeCast S1000000x64 (Pipeline.withArrays spec0 c (V0 m c) (fun w => (dats m 0 c).arrAt w cfg0.N)
    (Proc.devRef .tc (Pipeline.arrRef spec0 3))) shapeCasts_S500000x128_S1000000x64 = _
  rw [Pipeline.withArrays_arr spec0 launch0.win.arr_inj c _ _ 3, final3]

/-- The integer result: the region's integer output (`Body.final4`), unpacked. -/
theorem tail_v22 (c : Dev nD) :
    Pipeline.afterTail₀ cfgs (dats m) 0 (V0 m) [hostOps1] c main_v22
      = shapeCast S1000000x64 (packedNidx (V m c main_v18) (V m c main_v19)) shapeCasts_S500000x128_S1000000x64 := by
  unfold Pipeline.afterTail₀
  show StableHlo.after hostOps1 _ (Proc.devRef .tc main_v22) = _
  after_results
  show shapeCast S1000000x64 (Pipeline.withArrays spec0 c (V0 m c) (fun w => (dats m 0 c).arrAt w cfg0.N)
    (Proc.devRef .tc (Pipeline.arrRef spec0 4))) shapeCasts_S500000x128_S1000000x64 = _
  rw [Pipeline.withArrays_arr spec0 launch0.win.arr_inj c _ _ 4, final4]

/-- THE KERNEL PROGRAM'S RUN, READ: every weakly fair execution terminates with the two results at the unpacked masked updates
    of the packed arguments by the packed differences, and the arguments unchanged. -/
theorem run : θ_run defs (onTc (τ := τ) (main (F := F))) ⟨m, fun _ => 0, ρ⟩ fun r => ∀ c : Dev nD,
      r.2.mem ((c : Thread nD τ).loc main_v21)
        = shapeCast S1000000x64 (packedDist (shapeCast S500000x128 (m ((c : Thread nD τ).loc main_arg0)) shapeCasts_S1000000x64_S500000x128)
            (shapeCast S500000x2 (diff (m ((c : Thread nD τ).loc main_arg1)) (m ((c : Thread nD τ).loc main_arg2))) shapeCasts_S1000000x1_S500000x2))
            shapeCasts_S500000x128_S1000000x64
      ∧ r.2.mem ((c : Thread nD τ).loc main_v22)
        = shapeCast S1000000x64 (packedNidx (shapeCast S500000x128 (m ((c : Thread nD τ).loc main_arg1)) shapeCasts_S1000000x64_S500000x128)
            (shapeCast S500000x2 (diff (m ((c : Thread nD τ).loc main_arg1)) (m ((c : Thread nD τ).loc main_arg2))) shapeCasts_S1000000x1_S500000x2))
            shapeCasts_S500000x128_S1000000x64
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v21 (Pipeline.mem_restRefs_of main_v21 (by decide) (by decide))).trans
        ((tail_v21 m c).trans (by rw [V_v17, V_v19])),
      ((h c).2 main_v22 (Pipeline.mem_restRefs_of main_v22 (by decide) (by decide))).trans
        ((tail_v22 m c).trans (by rw [V_v18, V_v19])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelRun

end
-- ==== Proof.Diff.lean ====
/-
  The kernel program takes columns 1..63 of the integer array FIRST and gathers the scores at those; the reference gathers the
  scores at all 64 columns and THEN drops column 0. Either way the neighbour score at row `r`, neighbour column `k` is one
  function of the single word `w = nidx[r, k + 1]`: -10000 if `w` is negative, otherwise the score column at the position
  `max w 0` (moved up by the column's length if still negative, read as a signed integer and clamped into the column, as a gather
  does). So the two arrays of neighbour scores are equal, and with them the row maxima and the differences `score - max`.
-/
import proofs.«411835_j36094905155926_3_alg».proof.Proof.Prefix
import proofs.«411835_j36094905155926_3_alg».proof.Proof.Gen.ReferenceIdeal.Read
import Idealize.ShloMosaic.Lib.ValueIdx
import Idealize.ShloMosaic.Lib.ValueLayout

noncomputable section

namespace Cert.Diff

open Idealize.ShloMosaic Idealize.ShloMosaic.ValueIdx

variable {F : FTy → Type} [FloatOps F]

/-- The position in the score column an index word names. -/
def pos (w : BitVec 32) : BitVec 32 :=
  Scalar.select (IntOp.cmpi .slt (IntOp.maxsi w 0#32) 0#32) (IntOp.addi (IntOp.maxsi w 0#32) 1000000#32) (IntOp.maxsi w 0#32)

/-- The score a neighbour with index word `w` contributes, over the score column `sv`. -/
def scoreOf (sv : (⟨1, ![1000000]⟩ : Shape).Idx → F .f32) (w : BitVec 32) : F .f32 :=
  Scalar.select (IntOp.cmpi .slt w 0#32) (FloatOps.ofBits .f32 0xC61C4000#32)
    (sv (ix1 ⟨min (pos w).toInt.toNat (1000000 - 1), by omega⟩))

/-- A select of that shape whose condition and position are those of `w` is `scoreOf` at `w`. -/
theorem scoreOf_of_eq (sv : (⟨1, ![1000000]⟩ : Shape).Idx → F .f32) (w : BitVec 32) (c : BitVec 1) (A : BitVec 32)
    (hA : min A.toInt.toNat (1000000 - 1) < 1000000) (hc : c = IntOp.cmpi .slt w 0#32) (hAe : A = pos w) :
    Scalar.select c (FloatOps.ofBits .f32 0xC61C4000#32) (sv (ix1 ⟨min A.toInt.toNat (1000000 - 1), hA⟩)) = scoreOf sv w := by
  subst hc hAe; rfl

/-! ## The kernel program's side -/

section Kernel
open Cert.KernelIdeal Cert.KernelIdeal.Gen Cert.KernelIdeal.Prefix

/-- Slice first, then gather: at `(r, k)` the score of the word at `(r, k + 1)`. -/
theorem kernel_nbr (nidx : IVec S1000000x64 32) (score : FVec F S1000000x1 .f32) (r : Fin 1000000) (k : Fin 63) :
    nbrScores nidx score (ix2 r k)
      = scoreOf (shapeCast S1000000 score shapeCasts_S1000000x1_S1000000)
          (nidx (ix2 r (⟨1 + k.val, by have := k.isLt; omega⟩ : Fin 64))) := by
  have hidx : nbrIdx nidx (ix2 r k) = nidx (ix2 r (⟨1 + k.val, by have := k.isLt; omega⟩ : Fin 64)) :=
    slice2_axis1_apply 1 nidx slices_S1000000x64_S1000000x63_0_1 r k ⟨1 + k.val, by have := k.isLt; omega⟩ rfl
  have hpos : nbrPos nidx (ix2 r k) = pos (nidx (ix2 r (⟨1 + k.val, by have := k.isLt; omega⟩ : Fin 64))) := by
    show Scalar.select (IntOp.cmpi .slt (IntOp.maxsi (nbrIdx nidx (ix2 r k)) 0#32) 0#32)
      (IntOp.addi (IntOp.maxsi (nbrIdx nidx (ix2 r k)) 0#32) 1000000#32) (IntOp.maxsi (nbrIdx nidx (ix2 r k)) 0#32) = _
    rw [hidx]; rfl
  show Scalar.select (IntOp.cmpi .slt (nbrIdx nidx (ix2 r k)) 0#32) (FloatOps.ofBits .f32 0xC61C4000#32)
    (Host.gather (takeDims 1000000 1000000 63 gather_S1000000_S1000000x63x1_S1000000x63_n_0_n_n_0_2_1_wf)
      (shapeCast S1000000 score shapeCasts_S1000000x1_S1000000)
      (broadcastInDim S1000000x63x1 ![0, 1] bcast_S1000000x63_S1000000x63x1_0_1 (nbrPos nidx)) (ix2 r k)) = _
  rw [gather_take_apply (by decide) _ _ _ (ix2 r k)]
  refine scoreOf_of_eq _ _ _ _ _ (by rw [hidx]) ?_
  rw [broadcastInDim_apply _ bcast_S1000000x63_S1000000x63x1_0_1 (nbrPos nidx) (takeIdx (ix2 r k)) (ix2 r k) (fun a => match a with
      | ⟨0, _⟩ => by show r.val = if (1000000 : Nat) = 1 then 0 else r.val; rw [if_neg (by decide)]
      | ⟨1, _⟩ => by show k.val = if (63 : Nat) = 1 then 0 else k.val; rw [if_neg (by decide)]),
    hpos]

end Kernel

/-! ## The reference's side -/

section Reference
open Cert.ReferenceIdeal Cert.ReferenceIdeal.Gen Cert.ReferenceIdeal.Read

/-- Gather first, then slice: at `(r, k)` the score of the same word. -/
theorem ref_nbr (nidx : IVec S1000000x64 32) (score : FVec F S1000000x1 .f32) (r : Fin 1000000) (k : Fin 63) :
    val_main_v13 (F := F) nidx score (ix2 r k)
      = scoreOf (shapeCast S1000000 score shapeCasts_S1000000x1_S1000000)
          (nidx (ix2 r (⟨1 + k.val, by have := k.isLt; omega⟩ : Fin 64))) := by
  have hj : idx_main_v13 (ix2 r k) = ix2 r (⟨1 + k.val, by have := k.isLt; omega⟩ : Fin 64) :=
    funext fun a => Fin.ext (by
      match a with
      | ⟨0, _⟩ => rfl
      | ⟨1, _⟩ => rfl)
  rw [val_main_v13_apply, hj]
  show Scalar.select (IntOp.cmpi .slt (nidx (ix2 r (⟨1 + k.val, _⟩ : Fin 64))) 0#32) (FloatOps.ofBits .f32 0xC61C4000#32)
    (Host.gather (takeDims 1000000 1000000 64 gather_S1000000_S1000000x64x1_S1000000x64_n_0_n_n_0_2_1_wf)
      (shapeCast S1000000 score shapeCasts_S1000000x1_S1000000) (val_main_v8 (F := F) nidx) (ix2 r (⟨1 + k.val, _⟩ : Fin 64))) = _
  rw [gather_take_apply (by decide) _ _ _ (ix2 r (⟨1 + k.val, _⟩ : Fin 64))]
  have hi : idx_main_v8 (takeIdx (ix2 r (⟨1 + k.val, by have := k.isLt; omega⟩ : Fin 64))) = ix2 r (⟨1 + k.val, by have := k.isLt; omega⟩ : Fin 64) :=
    funext fun a => Fin.ext (by
      match a with
      | ⟨0, _⟩ => rfl
      | ⟨1, _⟩ => rfl)
  refine scoreOf_of_eq _ _ _ _ _ rfl ?_
  rw [val_main_v8_apply, hi]
  rfl

end Reference

/-! ## The two sides are one -/

/-- The two arrays of neighbour scores are one. -/
theorem nbrScores_eq (nidx : IVec Cert.KernelIdeal.S1000000x64 32) (score : FVec F Cert.KernelIdeal.S1000000x1 .f32) :
    Cert.KernelIdeal.Prefix.nbrScores nidx score = Cert.ReferenceIdeal.Read.val_main_v13 (F := F) nidx score := by
  funext i
  obtain ⟨r, k, rfl⟩ : ∃ (r : Fin 1000000) (k : Fin 63), i = ix2 r k := ⟨i 0, i 1, eq_ix2 i⟩
  rw [kernel_nbr, ref_nbr]

/-- THE DIFFERENCES of the two programs are one array. -/
theorem diff_eq (nidx : IVec Cert.KernelIdeal.S1000000x64 32) (score : FVec F Cert.KernelIdeal.S1000000x1 .f32) :
    Cert.KernelIdeal.Prefix.diff nidx score = Cert.ReferenceIdeal.Read.val_main_v16 (F := F) nidx score := by
  unfold Cert.KernelIdeal.Prefix.diff Cert.KernelIdeal.Prefix.maxNbr Cert.ReferenceIdeal.Read.val_main_v16
    Cert.ReferenceIdeal.Read.val_main_v15 Cert.ReferenceIdeal.Read.val_main_v14
  rw [nbrScores_eq]
  rfl

end Cert.Diff

end
-- ==== Proof.RefValue.lean ====
/-
  The reference read at row `r`, column `k`. Its condition is one bit per row — "the row's difference is below zero" — broadcast over the
  64 columns; where it holds the floats become zero and the integers become "column 0 kept, every other column -1" (the
  concatenation of column 0 with 63 columns of -1); elsewhere both arrays are kept.
-/
import proofs.«411835_j36094905155926_3_alg».proof.Proof.Gen.ReferenceIdeal.Read
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx

variable {F : FTy → Type} [FloatOps F]

/-- The row's bit, as the float select sees it at column `k`. -/
theorem cond1_apply (nidx : IVec S1000000x64 32) (score : FVec F S1000000x1 .f32) (r : Fin 1000000) (k : Fin 64) :
    val_main_call1_v0 (F := F) nidx score (ix2 r k)
      = FloatOps.cmpf .olt (val_main_v16 (F := F) nidx score (ix2 r (0 : Fin 1))) (FloatOps.ofBits .f32 0x00000000#32) := by
  have hi : idx_main_call1_v0 (ix2 r k) = ix2 r (0 : Fin 1) :=
    funext fun a => Fin.ext (by
      match a with
      | ⟨0, _⟩ => rfl
      | ⟨1, _⟩ => rfl)
  rw [val_main_call1_v0_apply, hi, val_main_v22_apply]
  rfl

/-- The same bit, as the integer select sees it. -/
theorem cond2_apply (nidx : IVec S1000000x64 32) (score : FVec F S1000000x1 .f32) (r : Fin 1000000) (k : Fin 64) :
    val_main_call2_v0 (F := F) nidx score (ix2 r k)
      = FloatOps.cmpf .olt (val_main_v16 (F := F) nidx score (ix2 r (0 : Fin 1))) (FloatOps.ofBits .f32 0x00000000#32) := by
  have hi : idx_main_call2_v0 (ix2 r k) = ix2 r (0 : Fin 1) :=
    funext fun a => Fin.ext (by
      match a with
      | ⟨0, _⟩ => rfl
      | ⟨1, _⟩ => rfl)
  rw [val_main_call2_v0_apply, hi, val_main_v22_apply]
  rfl

/-- The float result at `(r, k)`. -/
theorem dist_apply (dist : FVec F S1000000x64 .f32) (nidx : IVec S1000000x64 32) (score : FVec F S1000000x1 .f32)
    (r : Fin 1000000) (k : Fin 64) :
    val_main_v23 (F := F) dist nidx score (ix2 r k)
      = Scalar.select (FloatOps.cmpf .olt (val_main_v16 (F := F) nidx score (ix2 r (0 : Fin 1))) (FloatOps.ofBits .f32 0x00000000#32))
          (FloatOps.ofBits .f32 0x00000000#32) (dist (ix2 r k)) := by
  rw [val_main_v23_apply, cond1_apply]
  rfl

/-- "Column 0 kept, every other column -1" at `(r, k)`. -/
theorem keepSelf_apply (nidx : IVec S1000000x64 32) (r : Fin 1000000) (k : Fin 64) :
    val_main_v20 (F := F) nidx (ix2 r k) = if k.val = 0 then nidx (ix2 r (0 : Fin 64)) else 4294967295#32 := by
  unfold val_main_v20
  by_cases hk : k.val = 0
  · rw [if_pos hk, concatenate_pair_apply_left 1 _ _ concatenates_S1000000x1_S1000000x63_S1000000x64_d1 (ix2 r k) rfl
      (ix2 r (0 : Fin 1)) (fun b => by
        match b with
        | ⟨0, _⟩ => rfl
        | ⟨1, _⟩ => show 0 = k.val; omega),
      val_main_v17_apply]
    exact congrArg nidx (funext fun a => Fin.ext (by
      match a with
      | ⟨0, _⟩ => rfl
      | ⟨1, _⟩ => rfl))
  · have hk1 : k.val - 1 < 63 := by have := k.isLt; omega
    rw [if_neg hk, concatenate_pair_apply_right 1 _ _ concatenates_S1000000x1_S1000000x63_S1000000x64_d1 (ix2 r k) rfl rfl
      (ix2 r (⟨k.val - 1, hk1⟩ : Fin 63)) (fun b hb => by
        match b with
        | ⟨0, _⟩ => rfl
        | ⟨1, _⟩ => exact absurd rfl hb) (by show k.val - 1 + 1 = k.val; omega)]
    rfl

/-- The integer result at `(r, k)`. -/
theorem nidx_apply (nidx : IVec S1000000x64 32) (score : FVec F S1000000x1 .f32) (r : Fin 1000000) (k : Fin 64) :
    val_main_v24 (F := F) nidx score (ix2 r k)
      = Scalar.select (FloatOps.cmpf .olt (val_main_v16 (F := F) nidx score (ix2 r (0 : Fin 1))) (FloatOps.ofBits .f32 0x00000000#32))
          (if k.val = 0 then nidx (ix2 r (0 : Fin 64)) else 4294967295#32) (nidx (ix2 r k)) := by
  rw [val_main_v24_apply, cond2_apply, keepSelf_apply]

end Cert.ReferenceIdeal.RefValue

end
-- ==== Proof.Bridge.lean ====
/-
  The kernel program's two results are the reference's. At row `r`, column `k`, the unpacked masked update of the packed arrays is
  a select on "row `r`'s difference is below zero" between the replacement (zero for the floats; column 0 kept and -1 elsewhere for the
  integers) and the entry itself (`Packed.unpack_dist`, `Packed.unpack_nidx`), which is what the reference computes there
  (`RefValue.dist_apply`, `RefValue.nidx_apply`), the two programs' differences being one array (`Diff.diff_eq`).
-/
import proofs.«411835_j36094905155926_3_alg».proof.Proof.Packed
import proofs.«411835_j36094905155926_3_alg».proof.Proof.Diff
import proofs.«411835_j36094905155926_3_alg».proof.Proof.RefValue

noncomputable section

namespace Cert.Bridge

open Idealize.ShloMosaic Idealize.ShloMosaic.ValueIdx Cert.Packed

variable {F : FTy → Type} [FloatOps F]

/-- The floats. -/
theorem dist_eq (dist : FVec F Cert.KernelIdeal.S1000000x64 .f32) (nidx : IVec Cert.KernelIdeal.S1000000x64 32)
    (score : FVec F Cert.KernelIdeal.S1000000x1 .f32) :
    shapeCast Cert.KernelIdeal.S1000000x64
        (packedDist (shapeCast Cert.KernelIdeal.S500000x128 dist Cert.KernelIdeal.Gen.shapeCasts_S1000000x64_S500000x128)
          (shapeCast Cert.KernelIdeal.S500000x2 (Cert.KernelIdeal.Prefix.diff nidx score) Cert.KernelIdeal.Gen.shapeCasts_S1000000x1_S500000x2))
        Cert.KernelIdeal.Gen.shapeCasts_S500000x128_S1000000x64
      = Cert.ReferenceIdeal.Read.val_main_v23 (F := F) dist nidx score := by
  funext i
  obtain ⟨r, k, rfl⟩ : ∃ (r : Fin 1000000) (k : Fin 64), i = ix2 r k := ⟨i 0, i 1, eq_ix2 i⟩
  rw [Cert.ReferenceIdeal.RefValue.dist_apply, ← Cert.Diff.diff_eq]
  exact unpack_dist _ _ _ dist (Cert.KernelIdeal.Prefix.diff nidx score) r k

/-- The integers. -/
theorem nidx_eq (nidx : IVec Cert.KernelIdeal.S1000000x64 32) (score : FVec F Cert.KernelIdeal.S1000000x1 .f32) :
    shapeCast Cert.KernelIdeal.S1000000x64
        (packedNidx (shapeCast Cert.KernelIdeal.S500000x128 nidx Cert.KernelIdeal.Gen.shapeCasts_S1000000x64_S500000x128)
          (shapeCast Cert.KernelIdeal.S500000x2 (Cert.KernelIdeal.Prefix.diff nidx score) Cert.KernelIdeal.Gen.shapeCasts_S1000000x1_S500000x2))
        Cert.KernelIdeal.Gen.shapeCasts_S500000x128_S1000000x64
      = Cert.ReferenceIdeal.Read.val_main_v24 (F := F) nidx score := by
  funext i
  obtain ⟨r, k, rfl⟩ : ∃ (r : Fin 1000000) (k : Fin 64), i = ix2 r k := ⟨i 0, i 1, eq_ix2 i⟩
  rw [Cert.ReferenceIdeal.RefValue.nidx_apply, ← Cert.Diff.diff_eq]
  exact unpack_nidx _ _ _ nidx (Cert.KernelIdeal.Prefix.diff nidx score) r k

end Cert.Bridge

end
-- ==== Proof.lean ====
/-
  `Cert.Claim` for the masked neighbour update: per row of a [1000000, 64] float array and a [1000000, 64] integer array, a row
  whose score is below the largest score among its neighbours (columns 1..63 of the integer row index the score column; a negative index
  is "no neighbour", worth -10000) has its floats zeroed and its integers replaced by "column 0 kept, -1 elsewhere"; any other row is kept.

  The kernel program computes the row differences on the host, packs the three arrays two rows to a 128-lane row, runs one
  pipelined region of 100 blocks of 5000 packed rows, and unpacks. The reference does it on the unpacked arrays. The two are the same
  function of the arguments:
  - the differences agree although one program slices before gathering and the other after (Proof/Diff.lean);
  - block by block the region writes the restriction of one whole-array function of the packed arrays, and the blocks tile them
    (Proof/Body.lean), so with the host lines before and after the region the results are the unpacked update (Proof/KernelRun.lean);
  - unpacked, lane `(r % 2) * 64 + k` of packed row `r / 2` is entry `(r, k)`, the first 64 lanes take the even row's difference
    and the others the odd row's, and lanes 0 and 64 are the rows' column 0 (Proof/Packed.lean), which is the reference's
    select at `(r, k)` (Proof/RefValue.lean, Proof/Bridge.lean).
  No law of the extended reals is used: both sides apply the same operations to the same entries, so the finiteness of the inputs is
  never opened. The three frames are the generated ones (the reference's is its run with the results dropped); the idealization
  rewrote nothing, so `preserves` is trivial.
-/
import proofs.«411835_j36094905155926_3_alg».proof.Defs
import proofs.«411835_j36094905155926_3_alg».proof.Proof.Gen.Kernel
import proofs.«411835_j36094905155926_3_alg».proof.Proof.Gen.Kernel.Skeleton
import proofs.«411835_j36094905155926_3_alg».proof.Proof.Gen.Kernel.Launch
import proofs.«411835_j36094905155926_3_alg».proof.Proof.Gen.Kernel.Points
import proofs.«411835_j36094905155926_3_alg».proof.Proof.Gen.Kernel.Frame
import proofs.«411835_j36094905155926_3_alg».proof.Proof.Gen.KernelIdeal
import proofs.«411835_j36094905155926_3_alg».proof.Proof.Gen.KernelIdeal.Skeleton
import proofs.«411835_j36094905155926_3_alg».proof.Proof.Gen.KernelIdeal.Launch
import proofs.«411835_j36094905155926_3_alg».proof.Proof.Gen.KernelIdeal.Points
import proofs.«411835_j36094905155926_3_alg».proof.Proof.Gen.KernelIdeal.Frame
import proofs.«411835_j36094905155926_3_alg».proof.Proof.Gen.ReferenceIdeal
import proofs.«411835_j36094905155926_3_alg».proof.Proof.Gen.Pre_finite_inputs
import proofs.«411835_j36094905155926_3_alg».proof.Proof.Gen.ReferenceIdeal.Run
import proofs.«411835_j36094905155926_3_alg».proof.Proof.Gen.ReferenceIdeal.Read
import proofs.«411835_j36094905155926_3_alg».proof.Proof.KernelRun
import proofs.«411835_j36094905155926_3_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories agreeing on the arguments both programs end with the two results at the reference's stages of the arguments:
    the kernel program by its run and the bridge, the reference by its own run. -/
theorem algebraic : Cert.algebraic_KernelIdeal_ReferenceIdeal := by
  intro m ρ m' ρ' _ hagree
  refine ⟨fun c => Cert.ReferenceIdeal.Read.val_main_v23 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
    fun c => Cert.ReferenceIdeal.Read.val_main_v24 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)), ?_, ?_⟩
  · exact (θ_run Cert.KernelIdeal.defs _ _).mono (fun r h c =>
      ⟨(h c).1.trans (Cert.Bridge.dist_eq _ _ _), (h c).2.1.trans (Cert.Bridge.nidx_eq _ _), (h c).2.2⟩)
      (Cert.KernelIdeal.KernelRun.run (F := Ideal) m ρ)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v23_eq, (hagree c).1, (hagree c).2.1, (hagree c).2.2]
    · rw [(h c).2.1, Cert.ReferenceIdeal.Read.val_main_v24_eq, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
